-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Ternary.lean ====
/-
  The ternary weight and the product it enters, over the extended reals.

  A weight w is first clipped to the interval [-1, 1], c = min 1 (max (-1) w), and then rounded to the nearest
  integer, ties to even: t = round c, one of -1, 0, 1. Whatever extended real w is, c lies between -1 and 1 and is
  therefore a real number; so is t. Hence the "straight-through" form c + (t - c), in which the difference t - c
  is added back to c, is the ternary weight t itself: over the reals the two copies of c cancel, and no infinity
  is present to spoil the cancellation.

  The result both programs are compared through is the 8192 x 4096 array
      P (i, j) = sum over s < 4096 of X (i, s) * t (W (s, j)),
  and a sum over s < 4096 may be taken chunk by chunk: s = 512 a + r with a < 8 and r < 512 (addition of
  extended reals is commutative and associative, so the regrouping needs no finiteness).
-/
import Idealize.ShloMosaic.PureOps.Ideal
import Idealize.ShloMosaic.Lib.ValueIdx

noncomputable section

open scoped BigOperators

namespace Cert.Ternary

open Idealize.ShloMosaic Idealize.ShloMosaic.ValueIdx

/-! ## The two clip bounds -/

/-- The upper clip bound, the pattern of the float 1.0, denotes the real 1. -/
theorem upper_val : Ideal.ofBits .f32 0x3F800000#32 = ((1 : ℝ) : EReal) := by
  simp [Ideal.ofBits, Ideal.ieee, -EReal.coe_mul]; norm_num

/-- The lower clip bound, the pattern of the float -1.0, denotes the real -1. -/
theorem lower_val : Ideal.ofBits .f32 0xBF800000#32 = ((-1 : ℝ) : EReal) := by
  simp [Ideal.ofBits, Ideal.ieee, -EReal.coe_mul]; norm_num

/-! ## Clipping and rounding -/

/-- A weight clipped to [-1, 1]: the smaller of the upper bound and (the larger of the lower bound and w). -/
def clip (w : EReal) : EReal := min (Ideal.ofBits .f32 0x3F800000#32) (max (Ideal.ofBits .f32 0xBF800000#32) w)

/-- The ternary weight: the clipped weight rounded to the nearest integer, ties to even. -/
def tern (w : EReal) : EReal := Ideal.liftRound Ideal.roundHalfEven (clip w)

/-- The clipped weight is a real number, whatever extended real the weight is: an infinite weight is clipped to the
    bound on its side, a real weight to a real between the bounds. -/
theorem clip_real (w : EReal) : ∃ r : ℝ, clip w = (r : EReal) := by
  unfold clip
  rw [upper_val, lower_val]
  induction w using EReal.rec with
  | bot => exact ⟨-1, by rw [max_eq_left bot_le]; exact min_eq_right (EReal.coe_le_coe_iff.2 (by norm_num))⟩
  | top => exact ⟨1, by rw [max_eq_right le_top, min_eq_left le_top]⟩
  | coe r => exact ⟨min 1 (max (-1) r), by
      rw [← EReal.coe_strictMono.monotone.map_max, ← EReal.coe_strictMono.monotone.map_min]⟩

/-- Adding back to the clipped weight its distance to the ternary weight gives the ternary weight: c + (t - c) = t,
    because c is real. -/
theorem straight_through (w : EReal) : clip w + (tern w - clip w) = tern w := by
  unfold tern
  obtain ⟨r, hr⟩ := clip_real w
  rw [hr, Ideal.liftRound_coe, ← EReal.coe_sub, ← EReal.coe_add]
  congr 1
  ring

/-! ## The product -/

/-- Entry (i, j) of the product of X with the ternary weights of W: the sum over s of X (i, s) * t (W (s, j)). -/
def product (X : (⟨2, ![8192, 4096]⟩ : Shape).Idx → EReal) (W : (⟨2, ![4096, 4096]⟩ : Shape).Idx → EReal) :
    (⟨2, ![8192, 4096]⟩ : Shape).Idx → EReal :=
  fun e => ∑ s : Fin 4096, X (ix2 (e 0) s) * tern (W (ix2 s (e 1)))

/-- Position r of chunk a, among the 4096 positions: 512 a + r. -/
def pos (a : Fin 8) (r : Fin 512) : Fin 4096 := ⟨512 * a.val + r.val, by have := a.isLt; have := r.isLt; omega⟩

/-- A sum over the 4096 positions is the sum over the 8 chunks of the sums over each chunk's 512 positions. -/
theorem sum_by_chunks {β : Type*} [AddCommMonoid β] (f : Fin 4096 → β) :
    ∑ s : Fin 4096, f s = ∑ a : Fin 8, ∑ r : Fin 512, f (pos a r) := by
  rw [← Equiv.sum_comp (finProdFinEquiv (m := 8) (n := 512)) f, Fintype.sum_prod_type]
  refine Finset.sum_congr rfl fun a _ => Finset.sum_congr rfl fun r _ => congrArg f (Fin.ext ?_)
  show r.val + 512 * a.val = 512 * a.val + r.val
  omega

end Cert.Ternary
-- ==== Proof.Payload.lean ====
/-
  The kernel body's arithmetic at one entry, over the extended reals.

  At a grid point the body holds a 1024 x 512 block x of the inputs, a 512 x 1024 block w of the weights and the
  1024 x 1024 accumulator acc. It stores into the accumulator
      acc (p, q) + sum over r < 512 of x (p, r) * t (w (r, q)),
  t the ternary weight (clip to [-1, 1], round to nearest even): the two changes of float format are the identity
  on extended reals, the clip bounds are splats of the two literals, and the block product into the all-zero array
  is the plain sum of products. At the first point of a run the accumulator is first set to the all-zero array.
-/
import proofs.«151032_j21182778703910_1_alg».proof.Proof.Gen.KernelIdeal.Skeleton
import proofs.«151032_j21182778703910_1_alg».proof.Proof.LibDotPlain
import proofs.«151032_j21182778703910_1_alg».proof.Proof.Ternary
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Ternary

/-- The printed dimension numbers of the block product are the plain ones of a 1024 x 512 by 512 x 1024 product. -/
theorem dims_plain : dot_S1024x512_S512x1024_S1024x1024_1_0_0_1_n_n = DotDims.plain 1024 512 1024 := rfl

/-- The array the accumulator is reset to holds 0 at every entry. -/
theorem reset_apply (e : S1024x1024.Idx) : k0_pay1 (F := Ideal) e = 0 := by
  unfold k0_pay1
  simp only [shapeCast_self]
  show Ideal.ofBits .f32 0x00000000#32 = 0
  exact Ideal.ofBits_zero_f32

/-- What the body stores into the accumulator, at entry (p, q): the accumulator's entry plus the block's sum of
    products of the inputs with the ternary weights. -/
theorem step_apply (x : Vec Ideal S1024x512 .f32) (w : Vec Ideal S512x1024 .f32) (acc : Vec Ideal S1024x1024 .f32)
    (p q : Fin 1024) :
    k0_pay2 (F := Ideal) x w acc (ix2 p q) = acc (ix2 p q) + ∑ r : Fin 512, x (ix2 p r) * tern (w (ix2 r q)) := by
  unfold k0_pay2
  simp only [shapeCast_self]
  rw [dims_plain]
  show FloatOps.addf (F := Ideal) (acc (ix2 p q)) (FloatOps.matmul (F := Ideal) (DotDims.plain 1024 512 1024) none _ _
    (constant (F := Ideal) S1024x1024 .f32 0x00000000#32) (ix2 p q)) = _
  rw [Cert.LibDotPlain.matmul_zero_plain 1024 512 1024]
  rfl

end Cert.KernelIdeal.Payload
-- ==== Proof.Pieces.lean ====
/-
  What one run of the kernel body leaves behind, as the body's pure terms.

  The body keeps a 1024 x 1024 accumulator between grid points. Every run loads the whole input block x, the whole
  weight block w and the whole accumulator, and stores the whole accumulator back at step (x, w, accumulator): one
  store over the whole buffer, so what the buffer holds afterwards is that stored array. A run at the first point of
  a chain of eight first stores the all-zero array, and the accumulator it then loads is that array: it leaves
  step (x, w, zero). A run at the last point of a chain also copies the accumulator it has just stored into the
  output block: the output block holds the same array step (x, w, accumulator).
-/
import proofs.«151032_j21182778703910_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL Idealize.SL.Sem

variable {F : FTy → Type} [FloatOps F]

/-- The offsets of every load and store of the body: both zero. -/
theorem offsets_zero : (![0, 0] : Fin 2 → Nat) = fun _ => 0 := by
  funext a; fin_cases a <;> rfl

/-- First point of a chain: the accumulator is left at step (x, w, zero). -/
theorem acc_first (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x512 .f32) (x1 : Vec F S512x1024 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) offsets_zero, View.readCov_unit_zero (S := S1024x1024) _ offsets_zero]
  simp only [View.readAt_eq_ld, harg3.read_unread, harg4.read_unread, View.ld_unit_zero (S := S1024x512) offsets_zero,
    View.ld_unit_zero (S := S512x1024) offsets_zero]

/-- A middle point of a chain: the accumulator is left at step (x, w, what the point before left). -/
theorem acc_middle (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x512 .f32) (x1 : Vec F S512x1024 .f32) (xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero (S := S1024x1024) offsets_zero]
  simp only [View.readAt_eq_ld, harg3.read_unread, harg4.read_unread, harg6.read_unread,
    View.ld_unit_zero (S := S1024x512) offsets_zero, View.ld_unit_zero (S := S512x1024) offsets_zero,
    View.ld_unit_zero (S := S1024x1024) offsets_zero]

/-- Last point of a chain: the accumulator is left at step (x, w, what the point before left), -/
theorem acc_last (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S1024x1024) offsets_zero]
  simp only [View.readAt_eq_ld, harg3.read_unread, harg4.read_unread, harg6.read_unread,
    View.ld_unit_zero (S := S1024x512) offsets_zero, View.ld_unit_zero (S := S512x1024) offsets_zero,
    View.ld_unit_zero (S := S1024x1024) offsets_zero]

/-- and the output block holds the same array: the accumulator just stored, loaded back and copied. -/
theorem out_last (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1024x1024) offsets_zero, View.readCov_unit_zero (S := S1024x1024) _ offsets_zero]
  simp only [View.readAt_eq_ld, harg3.read_unread, harg4.read_unread, harg6.read_unread,
    View.ld_unit_zero (S := S1024x512) offsets_zero, View.ld_unit_zero (S := S512x1024) offsets_zero,
    View.ld_unit_zero (S := S1024x1024) offsets_zero]

end Cert.KernelIdeal.Pieces
-- ==== Proof.Blocks.lean ====
/-
  Where a grid point's blocks sit in the whole arrays.

  The grid has 8 x 4 x 8 = 256 points, the last coordinate running fastest: point t has row-block t / 32, column-block
  (t / 8) % 4 and chunk t % 8. At point t the input block is rows 1024 (t / 32) ... of X and columns 512 (t % 8) ...;
  the weight block is rows 512 (t % 8) ... of W and columns 1024 ((t / 8) % 4) ...; the output block is rows
  1024 (t / 32) ... and columns 1024 ((t / 8) % 4) ... of the result. Entry y of a block is the array's entry at
  (block index * block size + y) on each axis.
-/
import proofs.«151032_j21182778703910_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The three index maps in closed form, decided over the 256 points. -/
theorem index_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val / 32 ∧ win0_2.index t (1 : Fin 2) = t.val / 8 % 4 :=
  (by decide +kernel : ∀ t : Fin grid0.N, _)

/-- The input block and the weight block at a point, and the two whole arrays, at their literal types. -/
abbrev xblk (c : Dev nD) (t : Fin cfg0.N) : Vec F S1024x512 .f32 := iblk m c 0 t
abbrev wblk (c : Dev nD) (t : Fin cfg0.N) : Vec F S512x1024 .f32 := iblk m c 1 t
abbrev xarr (c : Dev nD) : Vec F S8192x4096 .f32 := V m c main_arg0
abbrev warr (c : Dev nD) : Vec F S4096x4096 .f32 := V m c main_arg1

/-- Entry y of the input block at point t is X at row 1024 (t / 32) + y0 and column 512 (t % 8) + y1. -/
theorem xblk_apply (c : Dev nD) (t : Fin cfg0.N) (y : S1024x512.Idx) (i : S8192x4096.Idx)
    (h0 : (i 0).val = 1024 * (t.val / 32) + (y 0).val) (h1 : (i 1).val = 512 * (t.val % 8) + (y 1).val) :
    xblk m c t y = xarr m c i := by
  obtain ⟨e0, e1, -⟩ := index_facts t
  show V m c main_arg0 (((cfg0.win 0).blk t).view.emb y) = V m c main_arg0 i
  congr 1
  funext a; apply Fin.ext
  match a with
  | ⟨0, _⟩ => show win0_0.index t (0 : Fin 2) * 1024 + 1 * (y 0).val = (i 0).val; omega
  | ⟨1, _⟩ => show win0_0.index t (1 : Fin 2) * 512 + 1 * (y 1).val = (i 1).val; omega

/-- Entry y of the weight block at point t is W at row 512 (t % 8) + y0 and column 1024 ((t / 8) % 4) + y1. -/
theorem wblk_apply (c : Dev nD) (t : Fin cfg0.N) (y : S512x1024.Idx) (i : S4096x4096.Idx)
    (h0 : (i 0).val = 512 * (t.val % 8) + (y 0).val) (h1 : (i 1).val = 1024 * (t.val / 8 % 4) + (y 1).val) :
    wblk m c t y = warr m c i := by
  obtain ⟨-, -, e0, e1, -⟩ := index_facts t
  show V m c main_arg1 (((cfg0.win 1).blk t).view.emb y) = V m c main_arg1 i
  congr 1
  funext a; apply Fin.ext
  match a with
  | ⟨0, _⟩ => show win0_1.index t (0 : Fin 2) * 512 + 1 * (y 0).val = (i 0).val; omega
  | ⟨1, _⟩ => show win0_1.index t (1 : Fin 2) * 1024 + 1 * (y 1).val = (i 1).val; omega

/-- Entry y of the output block at point t is the result's entry at row 1024 (t / 32) + y0 and column
    1024 ((t / 8) % 4) + y1. -/
theorem oblk_emb (t : Fin cfg0.N) (y : S1024x1024.Idx) :
    ((((cfg0.win 2).blk t).view.emb y) 0).val = 1024 * (t.val / 32) + (y 0).val
    ∧ ((((cfg0.win 2).blk t).view.emb y) 1).val = 1024 * (t.val / 8 % 4) + (y 1).val := by
  obtain ⟨-, -, -, -, e0, e1⟩ := index_facts t
  constructor
  · show win0_2.index t (0 : Fin 2) * 1024 + 1 * (y 0).val = _; omega
  · show win0_2.index t (1 : Fin 2) * 1024 + 1 * (y 1).val = _; omega

end Cert.KernelIdeal.Blocks
-- ==== Proof.Fold.lean ====
/-
  The accumulator along a chain of eight grid points, over the extended reals.

  Points 8 b, 8 b + 1, ..., 8 b + 7 share a row-block and a column-block and run through the eight chunks of the
  contraction. The first sets the accumulator to zero and adds its chunk's sum of products x (p, r) * t (w (r, q)), r < 512;
  each later one adds its own chunk's sum to what the point before left. So after point 8 b + j the accumulator's entry
  (p, q) is the sum, over the chunks 0 ... j, of the chunk's sum of products; after the last point, j = 7, that is the sum
  over all 4096 positions s = 512 a + r, and the last point copies the accumulator into the output block. Read through
  where the blocks sit in the whole arrays, the output block at the chain's last point holds the product of X with the
  ternary weights of W, at the block's rows and columns.
-/
import proofs.«151032_j21182778703910_1_alg».proof.Proof.Gen.KernelIdeal.Value
import proofs.«151032_j21182778703910_1_alg».proof.Proof.Payload
import proofs.«151032_j21182778703910_1_alg».proof.Proof.Pieces
import proofs.«151032_j21182778703910_1_alg».proof.Proof.Blocks

noncomputable section

open scoped BigOperators

namespace Cert.KernelIdeal.Fold

open Cert.KernelIdeal Cert.KernelIdeal.Gen Cert.KernelIdeal.Value Cert.KernelIdeal.Blocks
open Idealize.ShloMosaic Idealize.ShloMosaic.TcCoe Idealize.ShloMosaic.ValueIdx Idealize.SL.Sem Cert.Ternary

variable (m : (ℓ : Loc nD τ sig) → Buf (Elt Ideal) ℓ)

/-- What point n adds to the accumulator's entry e: its chunk's sum of products (nothing past the grid). -/
def addend (c : Dev nD) (n : ℕ) : S1024x1024.Idx → EReal := fun e =>
  if h : n < cfg0.N then ∑ r : Fin 512, xblk m c ⟨n, h⟩ (ix2 (e 0) r) * tern (wblk m c ⟨n, h⟩ (ix2 r (e 1))) else 0

/-- At the first point of a chain the accumulator is left at step (x, w, zero), whatever it held. -/
theorem first_point (c : Dev nD) (n : ℕ) (hb : n < cfg0.N) (h0 : n % 8 = 0) (acc : Vec Ideal S1024x1024 .f32) :
    scAt0_0 m c n hb acc = k0_pay2 (xblk m c ⟨n, hb⟩) (wblk m c ⟨n, hb⟩) (k0_pay1 (F := Ideal)) := by
  have h1 : ¬ n % 8 = 7 := by omega
  unfold scAt0_0
  rw [dif_pos h0, dif_neg h1]
  exact Pieces.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N))

/-- At every other point it is left at step (x, w, what it held). -/
theorem later_point (c : Dev nD) (n : ℕ) (hb : n < cfg0.N) (h0 : ¬ n % 8 = 0) (acc : Vec Ideal S1024x1024 .f32) :
    scAt0_0 m c n hb acc = k0_pay2 (xblk m c ⟨n, hb⟩) (wblk m c ⟨n, hb⟩) acc := by
  unfold scAt0_0
  by_cases h1 : n % 8 = 7
  · rw [dif_neg h0, dif_pos h1]
    exact Pieces.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N)) acc
  · rw [dif_neg h0, dif_neg h1]
    exact Pieces.acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N)) acc

/-- Entry by entry: the first point leaves 0 plus its addend, -/
theorem first_point_apply (c : Dev nD) (n : ℕ) (hb : n < cfg0.N) (h0 : n % 8 = 0) (acc : Vec Ideal S1024x1024 .f32)
    (e : S1024x1024.Idx) : scAt0_0 m c n hb acc e = 0 + addend m c n e := by
  obtain ⟨p, q, rfl⟩ : ∃ (p : Fin 1024) (q : Fin 1024), e = ix2 p q := ⟨e 0, e 1, eq_ix2 e⟩
  rw [first_point m c n hb h0 acc, Payload.step_apply, Payload.reset_apply]
  unfold addend
  rw [dif_pos hb]

/-- a later point what it held plus its addend. -/
theorem later_point_apply (c : Dev nD) (n : ℕ) (hb : n < cfg0.N) (h0 : ¬ n % 8 = 0) (acc : Vec Ideal S1024x1024 .f32)
    (e : S1024x1024.Idx) : scAt0_0 m c n hb acc e = acc e + addend m c n e := by
  obtain ⟨p, q, rfl⟩ : ∃ (p : Fin 1024) (q : Fin 1024), e = ix2 p q := ⟨e 0, e 1, eq_ix2 e⟩
  rw [later_point m c n hb h0 acc, Payload.step_apply]
  unfold addend
  rw [dif_pos hb]

/-- The accumulator after point t: the sum of the addends of the chain's points up to t. -/
theorem acc_after (c : Dev nD) (t : Fin cfg0.N) (e : S1024x1024.Idx) :
    (outsAt0 m c t.val t.isLt).2 e = 0 + ∑ s ∈ Finset.range (t.val % 8 + 1), addend m c (8 * (t.val / 8) + s) e := by
  rw [soutsAt0_0_eq m c t]
  exact Pipeline.accAt_add_apply (ι := S1024x1024.Idx) (β := EReal)
    (fun n h => scAt0_0 m c n h (VS0_0.read (Elt Ideal) VS0_0.junk)) (scAt0_0 m c) (fun _ => 0) (addend m c)
    (8 * (t.val / 8)) 7
    (fun h i => first_point_apply m c _ h (by omega) _ i)
    (fun n h acc i hlt hle => later_point_apply m c n h (by omega) acc i)
    (t.val % 8) (by omega) _ e

/-- At the last point of a chain the output block holds what the accumulator holds. -/
theorem out_last_eq (c : Dev nD) (t : Fin cfg0.N) (h7 : t.val % 8 = 7) :
    (outsAt0 m c t.val t.isLt).1 = (outsAt0 m c t.val t.isLt).2 := by
  have h0 : ¬ t.val % 8 = 0 := by omega
  rw [outsAt0_C m c t h0 h7]
  dsimp only
  rw [Pieces.out_last c (grid0.coords t) (ms0_0 t) (hs0_0 t) (ms0_1 t) (hs0_1 t) (ms0_2 t) (hs0_2 t) scM0_0 (Memref.isWhole_whole _) _ _ (iblk m c 0 t) (iblk m c 1 t) (outsAt0 m c (t.val - 1) (Nat.lt_of_le_of_lt (Nat.sub_le _ _) t.isLt)).2,
    Pieces.acc_last c (grid0.coords t) (ms0_0 t) (hs0_0 t) (ms0_1 t) (hs0_1 t) (ms0_2 t) (hs0_2 t) scM0_0 (Memref.isWhole_whole _) _ _ (iblk m c 0 t) (iblk m c 1 t) (outsAt0 m c (t.val - 1) (Nat.lt_of_le_of_lt (Nat.sub_le _ _) t.isLt)).2]

/-- The output block at the last point t of a chain, at entry (p, q): the product of X with the ternary weights of W at
    row 1024 (t / 32) + p and column 1024 ((t / 8) % 4) + q. -/
theorem chain_value (c : Dev nD) (t : Fin cfg0.N) (h7 : t.val % 8 = 7) (p q : Fin 1024) (i : S8192x4096.Idx)
    (h0 : (i 0).val = 1024 * (t.val / 32) + p.val) (h1 : (i 1).val = 1024 * (t.val / 8 % 4) + q.val) :
    (outsAt0 m c t.val t.isLt).1 (ix2 p q) = product (xarr m c) (warr m c) i := by
  have hN : t.val < 256 := lt_of_lt_of_eq t.isLt (show cfg0.N = 256 from N_0)
  have hrange : Finset.range (t.val % 8 + 1) = Finset.range 8 := by rw [h7]
  rw [out_last_eq m c t h7, acc_after m c t (ix2 p q), hrange, zero_add, Finset.sum_range]
  unfold product
  rw [sum_by_chunks]
  refine Finset.sum_congr rfl fun a _ => ?_
  have ha := a.isLt
  have hb : 8 * (t.val / 8) + a.val < cfg0.N := by
    have hN' : cfg0.N = 256 := N_0
    omega
  unfold addend
  rw [dif_pos hb]
  refine Finset.sum_congr rfl fun r _ => ?_
  have hr := r.isLt
  have ex : xblk m c ⟨8 * (t.val / 8) + a.val, hb⟩ (ix2 p r) = xarr m c (ix2 (i 0) (pos a r)) :=
    xblk_apply m c ⟨8 * (t.val / 8) + a.val, hb⟩ (ix2 p r) (ix2 (i 0) (pos a r))
      (by show (i 0).val = 1024 * ((8 * (t.val / 8) + a.val) / 32) + p.val; omega)
      (by show 512 * a.val + r.val = 512 * ((8 * (t.val / 8) + a.val) % 8) + r.val; omega)
  have ew : wblk m c ⟨8 * (t.val / 8) + a.val, hb⟩ (ix2 r q) = warr m c (ix2 (pos a r) (i 1)) :=
    wblk_apply m c ⟨8 * (t.val / 8) + a.val, hb⟩ (ix2 r q) (ix2 (pos a r) (i 1))
      (by show 512 * a.val + r.val = 512 * ((8 * (t.val / 8) + a.val) % 8) + r.val; omega)
      (by show (i 1).val = 1024 * ((8 * (t.val / 8) + a.val) / 8 % 4) + q.val; omega)
  exact congrArg₂ (· * ·) ex (congrArg tern ew)

end Cert.KernelIdeal.Fold
-- ==== Proof.Final.lean ====
/-
  The kernel's result array, over the extended reals.

  The output block is written back to the result array only at the last point of each chain of eight; there it holds the
  product's entries at the block's rows and columns, so what is written back is the block of ONE array, the product P of X
  with the ternary weights of W. Every entry (i, j) of the 8192 x 4096 result lies in the block of the chain with row-block
  i / 1024 and column-block j / 1024, whose last point is ((i / 1024) * 4 + j / 1024) * 8 + 7. So the result array ends
  holding P.
-/
import proofs.«151032_j21182778703910_1_alg».proof.Proof.Fold

noncomputable section

open scoped BigOperators

namespace Cert.KernelIdeal.Final

open Cert.KernelIdeal Cert.KernelIdeal.Gen Cert.KernelIdeal.Value Cert.KernelIdeal.Blocks Cert.KernelIdeal.Fold
open Idealize.ShloMosaic Idealize.ShloMosaic.TcCoe Idealize.ShloMosaic.ValueIdx Idealize.SL.Sem Cert.Ternary
open Idealize.ShloMosaic.Pipeline (Dat)

variable (m : (ℓ : Loc nD τ sig) → Buf (Elt Ideal) ℓ) (ρ : Dev nD → PrngReg)

/-- The product of the argument arrays, as the contents of the result buffer. -/
abbrev result (c : Dev nD) : Buf (Elt Ideal) ((c : Thread nD τ).loc main_v0) :=
  product (m ((c : Thread nD τ).loc main_arg0)) (m ((c : Thread nD τ).loc main_arg1))

/-- What a point that writes the output block back writes is its block of the product. -/
theorem written_back (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  rw [Value.flushed2]
  funext y
  obtain ⟨p, q, rfl⟩ : ∃ (p : Fin 1024) (q : Fin 1024), y = ix2 p q := ⟨y 0, y 1, eq_ix2 y⟩
  obtain ⟨e0, e1⟩ := oblk_emb t (ix2 p q)
  show (outsAt0 m c t.val t.isLt).1 (ix2 p q) = product (xarr m c) (warr m c) (((cfg0.win 2).blk t).view.emb (ix2 p q))
  exact chain_value m c t h7 p q _ e0 e1

/-- An entry is in point t's output block iff each coordinate is in the block's range on its axis. -/
theorem mem_block (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every entry of the result is in the block some chain's last point writes back. -/
theorem covered (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 256 := N_0
  let t : Fin cfg0.N := ⟨((i 0).val / 1024 * 4 + (i 1).val / 1024) * 8 + 7, by omega⟩
  have ht : t.val = ((i 0).val / 1024 * 4 + (i 1).val / 1024) * 8 + 7 := rfl
  obtain ⟨-, -, -, -, e0, e1⟩ := index_facts t
  refine ⟨t, (flush0_2 t).mpr (by omega), ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the run the result array holds the product. -/
theorem final (c : Dev nD) : (dats m 0 c).arrAt 2 cfg0.N = result m c :=
  (dats m 0 c).arrAt_eq_of_cover 2 (result m c) (written_back m c) covered

/-- The kernel's run: every weakly fair execution ends with the result at the product of the arguments, the arguments
    unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final
-- ==== Proof.RefSide.lean ====
/-
  The reference's result, over the extended reals, is the product with the ternary weights.

  The reference clips each weight to [-1, 1] (the larger of -1 and w, then the smaller of 1 and that), rounds the clipped
  weight c to the nearest integer t, ties to even, forms c + (t - c), and multiplies the inputs by that array: entry
  (i, j) of its result is the sum over s of X (i, s) * (c + (t - c)) (s, j). Since c is a real number, c + (t - c) is t,
  so the entry is the sum over s of X (i, s) * t (W (s, j)).
-/
import proofs.«151032_j21182778703910_1_alg».proof.Proof.Gen.ReferenceIdeal.Read
import proofs.«151032_j21182778703910_1_alg».proof.Proof.Ternary

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Ternary

/-- The clipped weights, entry by entry. -/
theorem clipped_apply (W : (⟨S4096x4096, .f32⟩ : BufTy).Contents (Elt Ideal)) (i : S4096x4096.Idx) :
    val_main_v0 (F := Ideal) W i = clip (W i) := by
  rw [val_main_v0_apply, val_main_call0_v4_apply, val_main_call0_v3_apply, val_main_cst_0_apply, val_main_call0_v2_apply,
    val_main_call0_v1_apply, val_main_call0_v0_apply, val_main_cst_apply]
  rfl

/-- The weights the reference multiplies by, c + (t - c), are the ternary weights. -/
theorem weights_apply (W : (⟨S4096x4096, .f32⟩ : BufTy).Contents (Elt Ideal)) (i : S4096x4096.Idx) :
    val_main_v3 (F := Ideal) W i = tern (W i) := by
  rw [val_main_v3_apply, val_main_v2_apply, val_main_v1_apply, clipped_apply]
  exact straight_through (W i)

/-- The reference's result is the product of the inputs with the ternary weights. -/
theorem result_eq (X : (⟨S8192x4096, .f32⟩ : BufTy).Contents (Elt Ideal)) (W : (⟨S4096x4096, .f32⟩ : BufTy).Contents (Elt Ideal)) :
    val_main_v4 (F := Ideal) X W = product X W := by
  funext e
  rw [val_main_v4_apply]
  unfold product
  refine Finset.sum_congr rfl fun k _ => ?_
  rw [weights_apply]
  have hl : lidx_main_v4 e k = ix2 (e 0) k := funext fun a => Fin.ext (by
    match a with
    | ⟨0, _⟩ => rfl
    | ⟨1, _⟩ => rfl)
  have hr : ridx_main_v4 e k = ix2 k (e 1) := funext fun a => Fin.ext (by
    match a with
    | ⟨0, _⟩ => rfl
    | ⟨1, _⟩ => rfl)
  rw [hl, hr]
  rfl

end Cert.ReferenceIdeal.RefValue
-- ==== Proof.lean ====
/-
  The kernel multiplies the 8192 x 4096 inputs X by the ternary weights of the 4096 x 4096 array W: each weight is clipped
  to [-1, 1] and rounded to the nearest integer, ties to even, and the product is accumulated chunk by chunk (eight chunks
  of 512 positions of the contraction) in a 1024 x 1024 accumulator per output block, which is copied to the output after
  the last chunk. The reference clips and rounds the same way, forms c + (t - c) from the clipped weight c and the rounded
  weight t, and multiplies X by that array in one product.

  Over the extended reals the changes of float format are the identity and a block product into the all-zero array is a
  plain sum of products. The clipped weight c is a real number whatever the weight is, so c + (t - c) = t; and a sum over
  the 4096 positions of the contraction is the sum of its eight chunks' sums, addition of extended reals being commutative
  and associative. Hence both programs end with the same array: entry (i, j) is the sum over s of X (i, s) * t (W (s, j)).

  The three programs run to the end, without a fault, leaving their arguments unchanged: the two kernel programs by their
  generated frames, the reference by its generated run. The idealized kernel is the kernel's own text read over the extended
  reals: nothing was rewritten.
-/
import proofs.«151032_j21182778703910_1_alg».proof.Defs
import proofs.«151032_j21182778703910_1_alg».proof.Proof.Gen.Kernel
import proofs.«151032_j21182778703910_1_alg».proof.Proof.Gen.Kernel.Skeleton
import proofs.«151032_j21182778703910_1_alg».proof.Proof.Gen.Kernel.Launch
import proofs.«151032_j21182778703910_1_alg».proof.Proof.Gen.Kernel.Points
import proofs.«151032_j21182778703910_1_alg».proof.Proof.Gen.Kernel.Frame
import proofs.«151032_j21182778703910_1_alg».proof.Proof.Gen.KernelIdeal
import proofs.«151032_j21182778703910_1_alg».proof.Proof.Gen.KernelIdeal.Skeleton
import proofs.«151032_j21182778703910_1_alg».proof.Proof.Gen.KernelIdeal.Launch
import proofs.«151032_j21182778703910_1_alg».proof.Proof.Gen.KernelIdeal.Points
import proofs.«151032_j21182778703910_1_alg».proof.Proof.Gen.KernelIdeal.Frame
import proofs.«151032_j21182778703910_1_alg».proof.Proof.Gen.ReferenceIdeal
import proofs.«151032_j21182778703910_1_alg».proof.Proof.Gen.KernelIdeal.Value
import proofs.«151032_j21182778703910_1_alg».proof.Proof.Gen.ReferenceIdeal.Run
import proofs.«151032_j21182778703910_1_alg».proof.Proof.Gen.ReferenceIdeal.Read
import proofs.«151032_j21182778703910_1_alg».proof.Proof.Gen.Pre_finite_inputs
import proofs.«151032_j21182778703910_1_alg».proof.Proof.Final
import proofs.«151032_j21182778703910_1_alg».proof.Proof.RefSide
import Idealize.ShloMosaic.Adequacy
import Idealize.ShloMosaic.Init

noncomputable section

namespace Cert.Proof

open Idealize.ShloMosaic Idealize.SL.Sem

/-- The kernel, word by word, runs to the end and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten for its reading over the extended reals. -/
theorem preserves : Cert.preserves_Kernel_KernelIdeal := trivial

/-- From arguments that agree, the kernel ends with the product of X with the ternary weights of W, and the reference with
    the product of X with c + (t - c), which is the same array. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
